-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096x4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x4096x4096_S16384x4096 : S4x4096x4096.ShapeCasts S16384x4096
  shapeCasts_S4096_S1x4096 : S4096.ShapeCasts S1x4096
  shapeCasts_S16384x4096_S4x4096x4096 : S16384x4096.ShapeCasts S4x4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4x4096x4096, .f32⟩
  | .hbm, ⟨4, _⟩ => ⟨S1x1x4096, .f32⟩
  | .hbm, ⟨5, _⟩ => ⟨S4x4096x4096, .f32⟩
  | .hbm, ⟨6, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Pieces.lean ====
/-
  What one run of the kernel body leaves behind, as values. The body keeps a running total in a scratch block:
  at the first step along the contracted axis it stores zeros there; at every step it adds the product of the current
  input block and weight block (contracted over their shared second axis) to the scratch; at the last step it also
  writes scratch plus the bias row, broadcast over the rows, to the output block. Each of the three control cases leaves
  in the scratch, and the last in the output, exactly the stored payload of the blocks it loaded.
-/
import proofs.«122596_j25975962206327_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step along the contracted axis: zeros are stored, read back, and the first product is added. -/
theorem scratch_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle step: the product is added to what the step before left in the scratch. -/
theorem scratch_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The last step leaves the same running total in the scratch … -/
theorem scratch_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- … and writes that total plus the bias row to the output block. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1x1024) hz, View.readCov_unit_zero (S := S1024x1024) _ hz]

end Cert.KernelIdeal.Pieces

end
-- ==== Proof.Chain.lean ====
/-
  The scratch total across the four steps of one output block. Grid points come in runs of four along the contracted
  axis (the innermost grid axis): the run's first point resets the scratch and adds its product, the next two add
  theirs, the fourth adds its own and writes total plus bias to the output block. So what the fourth point writes
  back is the epilogue of four nested accumulations over zero, of the blocks the four points were handed.
-/
import proofs.«122596_j25975962206327_1_alg».proof.Proof.Pieces

noncomputable section

open Idealize.ShloMosaic Idealize.ShloMosaic.TcCoe Idealize.SL.Sem

namespace Cert.KernelIdeal.Chain

open Cert.KernelIdeal Cert.KernelIdeal.Gen Cert.KernelIdeal.Pieces

variable {F : FTy → Type} [FloatOps F]
variable (m : (ℓ : Loc nD τ sig) → Buf (Elt F) ℓ)

/-- The input block, the weight block and the bias block handed to point `t`, at their literal types. -/
abbrev xblk (c : Dev nD) (t : Fin cfg0.N) : Vec F S1024x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t

/-- The scratch after point `n`. -/
def scr (c : Dev nD) (n : ℕ) (h : n < cfg0.N) : Vec F S1024x1024 .f32 := (outsAt0 m c n h).2

theorem scr_congr (c : Dev nD) {n n' : ℕ} (e : n = n') (h : n < cfg0.N) (h' : n' < cfg0.N) : scr m c n h = scr m c n' h' := by
  subst e; rfl

/-- At a run's first point the scratch is the first product over zero. -/
theorem scr_first (c : Dev nD) (t : Fin cfg0.N) (h0 : t.val % 4 = 0) :
    scr m c t.val t.isLt = k0_pay2 (xblk m c t) (wblk m c t) (k0_pay1 (F := F)) := by
  have h1 : ¬t.val % 4 = 3 := by omega
  unfold scr
  rw [outsAt0_A m c t h0 h1]
  dsimp only
  exact scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At a middle point it is the point's product over what the point before left. -/
theorem scr_middle (c : Dev nD) (t : Fin cfg0.N) (h0 : ¬t.val % 4 = 0) (h1 : ¬t.val % 4 = 3) :
    scr m c t.val t.isLt = k0_pay2 (xblk m c t) (wblk m c t) (scr m c (t.val - 1) (Nat.lt_of_le_of_lt (Nat.sub_le _ _) t.isLt)) := by
  unfold scr
  rw [outsAt0_B m c t h0 h1]
  dsimp only
  exact scratch_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a run's last point the output block is the epilogue of the point's product over what the point before left. -/
theorem out_last_point (c : Dev nD) (t : Fin cfg0.N) (h1 : t.val % 4 = 3) :
    (outsAt0 m c t.val t.isLt).1
      = k0_pay3 (k0_pay2 (xblk m c t) (wblk m c t) (scr m c (t.val - 1) (Nat.lt_of_le_of_lt (Nat.sub_le _ _) t.isLt))) (bblk m c t) := by
  have h0 : ¬t.val % 4 = 0 := by omega
  unfold scr
  rw [outsAt0_C m c t h0 h1]
  dsimp only
  exact out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- The four steps together: `t3, t2, t1, t` are the run's four points in order. -/
theorem out_run (c : Dev nD) (t t1 t2 t3 : Fin cfg0.N) (h : t.val % 4 = 3)
    (e1 : t.val - 1 = t1.val) (e2 : t1.val - 1 = t2.val) (e3 : t2.val - 1 = t3.val) :
    (outsAt0 m c t.val t.isLt).1
      = k0_pay3 (k0_pay2 (xblk m c t) (wblk m c t) (k0_pay2 (xblk m c t1) (wblk m c t1) (k0_pay2 (xblk m c t2) (wblk m c t2)
          (k0_pay2 (xblk m c t3) (wblk m c t3) (k0_pay1 (F := F)))))) (bblk m c t) := by
  rw [out_last_point m c t h, scr_congr m c e1 _ t1.isLt, scr_middle m c t1 (by omega) (by omega),
    scr_congr m c e2 _ t2.isLt, scr_middle m c t2 (by omega) (by omega),
    scr_congr m c e3 _ t3.isLt, scr_first m c t3 (by omega)]

end Cert.KernelIdeal.Chain

end
-- ==== Proof.Payload.lean ====
/-
  The three stored payloads of the kernel body read at one element, over the extended reals: the reset stores zero;
  the accumulation stores the old total plus the sum, over the 1024 positions of the blocks' shared axis, of the products
  of the input block's row and the weight block's row (narrowing to bf16 is the identity here); the epilogue stores the
  total plus the bias row's entry of the same column.
-/
import proofs.«122596_j25975962206327_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ### The product's operand indices: rows of both blocks against the shared second axis -/

theorem lhs_mm_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_mm_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_mm_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_mm_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator, at row `p` and column `q`: row `p` of the left block against row `q` of the right one. -/
theorem matmul_block_apply (x w : FVec Ideal S1024x1024 .bf16) (p q : Fin 1024) :
    matmul dot_S1024x1024_S1024x1024_S1024x1024_1_1_0_0_n_n none x w (constant (F := Ideal) S1024x1024 .f32 0x00000000#32) (ix2 p q)
      = ∑ kk : Fin 1024, x (ix2 p kk) * w (ix2 q kk) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-- The reset's payload is zero everywhere. -/
theorem reset_apply (p q : Fin 1024) : (k0_pay1 (F := Ideal)) (ix2 p q) = 0 := by
  unfold k0_pay1
  rw [shapeCast_self]
  exact Ideal.ofBits_zero_f32

/-- The accumulation's payload: the old total plus this step's partial product. -/
theorem accumulate_apply (x w acc : Vec Ideal S1024x1024 .f32) (p q : Fin 1024) :
    k0_pay2 x w acc (ix2 p q) = acc (ix2 p q) + ∑ kk : Fin 1024, x (ix2 p kk) * w (ix2 q kk) := by
  unfold k0_pay2
  simp only [shapeCast_self]
  refine (addf_apply _ _ _).trans ?_
  refine congrArg (acc (ix2 p q) + ·) ?_
  exact matmul_block_apply _ _ p q

/-- The epilogue's payload: the total plus the bias row at the column. -/
theorem epilogue_apply (acc : Vec Ideal S1024x1024 .f32) (b : Vec Ideal S1x1024 .f32) (p q : Fin 1024) :
    k0_pay3 acc b (ix2 p q) = acc (ix2 p q) + b (ix2 (0 : Fin 1) q) := by
  unfold k0_pay3
  simp only [shapeCast_self]
  refine (addf_apply _ _ _).trans ?_
  exact congrArg (acc (ix2 p q) + ·) (broadcastTo_1b_ab_apply _ _ p q)

end Cert.KernelIdeal.Payload

end
-- ==== Proof.BlockSum.lean ====
/-
  A sum over the 4096 positions of the contracted axis, read as four consecutive stretches of 1024 positions each.
  The kernel walks the contracted axis in four steps and adds each step's partial sum to an accumulator that starts
  at zero; in a commutative monoid that ordered chain is the one sum over the whole axis.
-/
import Mathlib.Algebra.BigOperators.Fin
import Mathlib.Logic.Equiv.Fin.Basic

open scoped BigOperators

namespace Cert.BlockSum

/-- Position `kk` of stretch `a` of the contracted axis: `1024 * a + kk`. -/
def pos (a : Fin 4) (kk : Fin 1024) : Fin 4096 := ⟨1024 * a.val + kk.val, by have := a.isLt; have := kk.isLt; omega⟩

theorem pos_val (a : Fin 4) (kk : Fin 1024) : (pos a kk).val = 1024 * a.val + kk.val := rfl

/-- The whole sum is the sum over the stretches of the sums inside each stretch. -/
theorem sum_eq_sum_stretches {M : Type*} [AddCommMonoid M] (f : Fin 4096 → M) :
    ∑ k, f k = ∑ a : Fin 4, ∑ kk : Fin 1024, f (pos a kk) := by
  calc ∑ k, f k = ∑ p : Fin 4 × Fin 1024, f (pos p.1 p.2) :=
        (Fintype.sum_equiv (finProdFinEquiv (m := 4) (n := 1024)) (fun p => f (pos p.1 p.2)) f
          (fun p => congrArg f (Fin.ext (by
            show 1024 * p.1.val + p.2.val = p.2.val + 1024 * p.1.val
            omega)))).symm
    _ = _ := Fintype.sum_prod_type _

/-- The accumulator's ordered chain — zero, then the four stretches' partial sums added first to last — is the whole sum. -/
theorem chain_eq_sum {M : Type*} [AddCommMonoid M] (f : Fin 4096 → M) :
    ((((0 + ∑ kk : Fin 1024, f (pos 0 kk)) + ∑ kk : Fin 1024, f (pos 1 kk)) + ∑ kk : Fin 1024, f (pos 2 kk))
      + ∑ kk : Fin 1024, f (pos 3 kk)) = ∑ k, f k := by
  rw [sum_eq_sum_stretches, Fin.sum_univ_four, zero_add]

end Cert.BlockSum
-- ==== Proof.Spec.lean ====
/-
  The specification: a linear layer `out[b, s, o] = Σ_i x[b, s, i] · w[o, i] + bias[o]` over the extended reals, and
  the same layer on the flattened rows `r = 4096 · b + s`. The two are one function up to the row-major re-indexing
  of the leading axes; and on a flattened row the accumulator's ordered chain over the four stretches of the
  contracted axis, bias added last, is the flattened layer (addition of extended reals is associative and commutative
  and zero is neutral, so no finiteness is needed).
-/
import Idealize.ShloMosaic.Lib.ValueIdx
import Idealize.ShloMosaic.Lib.ValueLayout
import Idealize.ShloMosaic.Lib.Pipeline.Value
import proofs.«122596_j25975962206327_1_alg».proof.Proof.BlockSum

noncomputable section

open scoped BigOperators

namespace Cert.Spec

open Idealize.ShloMosaic Idealize.ShloMosaic.ValueIdx Cert.BlockSum

abbrev SX : Shape := ⟨3, ![4, 4096, 4096]⟩
abbrev SW : Shape := ⟨2, ![4096, 4096]⟩
abbrev SB : Shape := ⟨1, ![4096]⟩
abbrev SF : Shape := ⟨2, ![16384, 4096]⟩
abbrev SB2 : Shape := ⟨2, ![1, 4096]⟩

/-- The layer on the original axes. -/
def linear (x : SX.Idx → EReal) (w : SW.Idx → EReal) (b : SB.Idx → EReal) : SX.Idx → EReal :=
  fun i => (∑ k : Fin 4096, x (ix3 (i 0 : Fin 4) (i 1 : Fin 4096) k) * w (ix2 (i 2 : Fin 4096) k)) + b (ix1 (i 2 : Fin 4096))

/-- The layer on flattened rows, the bias as a one-row matrix. -/
def flatLinear (xf : SF.Idx → EReal) (w : SW.Idx → EReal) (b2 : SB2.Idx → EReal) : SF.Idx → EReal :=
  fun j => (∑ k : Fin 4096, xf (ix2 (j 0 : Fin 16384) k) * w (ix2 (j 1 : Fin 4096) k)) + b2 (ix2 (0 : Fin 1) (j 1 : Fin 4096))

/-- The accumulator's chain at flattened row `r` and output column `o`: zero, the four stretches' partial products
    added first to last, then the bias. It is the flattened layer there. -/
theorem chain_eq_flatLinear (xf : SF.Idx → EReal) (w : SW.Idx → EReal) (b2 : SB2.Idx → EReal) (r : Fin 16384) (o : Fin 4096) :
    ((((0 + ∑ kk : Fin 1024, xf (ix2 r (pos 0 kk)) * w (ix2 o (pos 0 kk)))
        + ∑ kk : Fin 1024, xf (ix2 r (pos 1 kk)) * w (ix2 o (pos 1 kk)))
        + ∑ kk : Fin 1024, xf (ix2 r (pos 2 kk)) * w (ix2 o (pos 2 kk)))
        + ∑ kk : Fin 1024, xf (ix2 r (pos 3 kk)) * w (ix2 o (pos 3 kk)))
      + b2 (ix2 (0 : Fin 1) o) = flatLinear xf w b2 (ix2 r o) :=
  congrArg (· + b2 (ix2 (0 : Fin 1) o)) (chain_eq_sum (fun k => xf (ix2 r k) * w (ix2 o k)))

/-- Flattened row `4096 · a + s`. -/
def flatRow (a : Fin 4) (s : Fin 4096) : Fin 16384 := ⟨4096 * a.val + s.val, by have := a.isLt; have := s.isLt; omega⟩

/-- The input with its two leading axes flattened reads, at row `4096 · a + s`, the input at `(a, s)`. -/
theorem flatten_apply (x : SX.Idx → EReal) (h : SX.ShapeCasts SF) (a : Fin 4) (s : Fin 4096) (k : Fin 4096) :
    shapeCast SF x h (ix2 (flatRow a s) k) = x (ix3 a s k) :=
  shapeCast_apply x h _ _ (by
    rw [Shape.rowMajor_val_two, Shape.rowMajor_val_three]
    show (a.val * 4096 + s.val) * 4096 + k.val = (4096 * a.val + s.val) * 4096 + k.val
    omega)

/-- The flattened layer of the flattened input and the one-row bias, unflattened, is the layer. -/
theorem unflatten_flatLinear (x : SX.Idx → EReal) (w : SW.Idx → EReal) (b : SB.Idx → EReal)
    (hx : SX.ShapeCasts SF) (hb : SB.ShapeCasts SB2) (ho : SF.ShapeCasts SX) :
    shapeCast SX (flatLinear (shapeCast SF x hx) w (shapeCast SB2 b hb)) ho = linear x w b := by
  funext i
  obtain ⟨a, s, o, rfl⟩ : ∃ (a : Fin 4) (s : Fin 4096) (o : Fin 4096), i = ix3 a s o := ⟨i 0, i 1, i 2, eq_ix3 i⟩
  refine (shapeCast_apply _ ho (ix3 a s o) (ix2 (flatRow a s) o) (by
    rw [Shape.rowMajor_val_two, Shape.rowMajor_val_three]
    show (4096 * a.val + s.val) * 4096 + o.val = (a.val * 4096 + s.val) * 4096 + o.val
    omega)).trans ?_
  unfold flatLinear linear
  show (∑ k : Fin 4096, shapeCast SF x hx (ix2 (flatRow a s) k) * w (ix2 o k)) + shapeCast SB2 b hb (ix2 (0 : Fin 1) o)
    = (∑ k : Fin 4096, x (ix3 a s k) * w (ix2 o k)) + b (ix1 o)
  rw [shapeCast_a_1a_apply b hb (0 : Fin 1) o]
  exact congrArg (· + b (ix1 o)) (Finset.sum_congr rfl fun k _ => by rw [flatten_apply])

end Cert.Spec

end
-- ==== Proof.KernelValue.lean ====
/-
  The kernel's result, over the extended reals. The region finds the input flattened to 16384 rows, the weight as
  launched and the bias as a one-row matrix. Grid point `t` is block row `t / 16`, block column `(t / 4) % 4` and
  step `t % 4` along the contracted axis; a run of four points fills one output block, and the blocks tile the
  flattened result. Element `(p, q)` of the block written at a run's last point is the accumulator's chain at
  flattened row `1024 · (t / 16) + p` and column `1024 · ((t / 4) % 4) + q`, which is the flattened layer there; the
  reshape after the region unflattens the rows.
-/
import proofs.«122596_j25975962206327_1_alg».proof.Proof.Chain
import proofs.«122596_j25975962206327_1_alg».proof.Proof.Payload
import proofs.«122596_j25975962206327_1_alg».proof.Proof.Spec
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Chain Cert.KernelIdeal.Payload Cert.BlockSum

variable (m : (ℓ : Loc nD τ sig) → Buf (Elt Ideal) ℓ) (ρ : Dev nD → PrngReg)

/-- The flattened input, the weight and the one-row bias as the region finds them. -/
abbrev xarr (c : Dev nD) : Vec Ideal S16384x4096 .f32 := V m c main_call0_v0
abbrev warr (c : Dev nD) : Vec Ideal S4096x4096 .f32 := V m c main_arg1
abbrev barr (c : Dev nD) : Vec Ideal S1x4096 .f32 := V m c main_call0_v1

/-- The printed index maps in closed form, decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The input block at `t`: rows `1024 · (t / 16) + p`, positions `1024 · (t % 4) + kk` of the flattened input. -/
theorem xblk_apply (c : Dev nD) (t : Fin cfg0.N) (p kk : Fin 1024) (r : Fin 16384) (k : Fin 4096)
    (hr : r.val = 1024 * (t.val / 16) + p.val) (hk : k.val = 1024 * (t.val % 4) + kk.val) :
    xblk m c t (ix2 p kk) = xarr m c (ix2 r k) := by
  obtain ⟨e0, e1, -⟩ := idx_facts t
  unfold xblk iblk
  rw [View.read_apply]
  show V m c main_call0_v0 _ = V m c main_call0_v0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * kk.val = k.val; rw [e1, hk]; omega

/-- The weight block at `t`: rows `1024 · ((t / 4) % 4) + q`, the same positions. -/
theorem wblk_apply (c : Dev nD) (t : Fin cfg0.N) (q kk : Fin 1024) (o : Fin 4096) (k : Fin 4096)
    (ho : o.val = 1024 * (t.val / 4 % 4) + q.val) (hk : k.val = 1024 * (t.val % 4) + kk.val) :
    wblk m c t (ix2 q kk) = warr m c (ix2 o k) := by
  obtain ⟨-, -, e0, e1, -⟩ := idx_facts t
  unfold wblk iblk
  rw [View.read_apply]
  show V m c main_arg1 _ = V m c main_arg1 _
  congr 1
  funext a
  apply Fin.ext
  match a with
  | ⟨0, _⟩ => show win0_1.index t (0 : Fin 2) * 1024 + 1 * q.val = o.val; rw [e0, ho]; omega
  | ⟨1, _⟩ => show win0_1.index t (1 : Fin 2) * 1024 + 1 * kk.val = k.val; rw [e1, hk]; omega

/-- The bias block at `t`: columns `1024 · ((t / 4) % 4) + q` of the one row. -/
theorem bblk_apply (c : Dev nD) (t : Fin cfg0.N) (q : Fin 1024) (o : Fin 4096)
    (ho : o.val = 1024 * (t.val / 4 % 4) + q.val) :
    bblk m c t (ix2 (0 : Fin 1) q) = barr m c (ix2 (0 : Fin 1) o) := by
  obtain ⟨-, -, -, -, e0, e1, -⟩ := idx_facts t
  unfold bblk iblk
  rw [View.read_apply]
  show V m c main_call0_v1 _ = V m c main_call0_v1 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = o.val; rw [e1, ho]; omega

/-- One step's partial product, through the blocks, is the stretch of the flattened product. -/
theorem step_sum (c : Dev nD) (t : Fin cfg0.N) (a : Fin 4) (ha : t.val % 4 = a.val) (p q : Fin 1024) (r : Fin 16384) (o : Fin 4096)
    (hr : r.val = 1024 * (t.val / 16) + p.val) (ho : o.val = 1024 * (t.val / 4 % 4) + q.val) :
    ∑ kk : Fin 1024, xblk m c t (ix2 p kk) * wblk m c t (ix2 q kk)
      = ∑ kk : Fin 1024, xarr m c (ix2 r (pos a kk)) * warr m c (ix2 o (pos a kk)) :=
  Finset.sum_congr rfl fun kk _ => by
    rw [xblk_apply m c t p kk r (pos a kk) hr (by rw [pos_val, ha]), wblk_apply m c t q kk o (pos a kk) ho (by rw [pos_val, ha])]

/-- The flattened result. -/
abbrev flatResult (c : Dev nD) : Vec Ideal S16384x4096 .f32 := Cert.Spec.flatLinear (xarr m c) (warr m c) (barr m c)

/-- What a run's last point leaves in the output block, element by element: the flattened layer at the block's place. -/
theorem out_apply (c : Dev nD) (t : Fin cfg0.N) (h : t.val % 4 = 3) (p q : Fin 1024) (r : Fin 16384) (o : Fin 4096)
    (hr : r.val = 1024 * (t.val / 16) + p.val) (ho : o.val = 1024 * (t.val / 4 % 4) + q.val) :
    (outsAt0 m c t.val t.isLt).1 (ix2 p q) = flatResult m c (ix2 r o) := by
  have hN : cfg0.N = 256 := N_0
  have ht := t.isLt
  rw [out_run m c t ⟨t.val - 1, by omega⟩ ⟨t.val - 2, by omega⟩ ⟨t.val - 3, by omega⟩ h rfl (by show t.val - 1 - 1 = t.val - 2; omega) (by show t.val - 2 - 1 = t.val - 3; omega)]
  rw [epilogue_apply, accumulate_apply, accumulate_apply, accumulate_apply, accumulate_apply, reset_apply]
  rw [step_sum m c t 3 (by show t.val % 4 = 3; exact h) p q r o hr ho,
    step_sum m c ⟨t.val - 1, by omega⟩ 2 (by show (t.val - 1) % 4 = 2; omega) p q r o (by show r.val = 1024 * ((t.val - 1) / 16) + p.val; omega) (by show o.val = 1024 * ((t.val - 1) / 4 % 4) + q.val; omega),
    step_sum m c ⟨t.val - 2, by omega⟩ 1 (by show (t.val - 2) % 4 = 1; omega) p q r o (by show r.val = 1024 * ((t.val - 2) / 16) + p.val; omega) (by show o.val = 1024 * ((t.val - 2) / 4 % 4) + q.val; omega),
    step_sum m c ⟨t.val - 3, by omega⟩ 0 (by show (t.val - 3) % 4 = 0; omega) p q r o (by show r.val = 1024 * ((t.val - 3) / 16) + p.val; omega) (by show o.val = 1024 * ((t.val - 3) / 4 % 4) + q.val; omega),
    bblk_apply m c t q o ho]
  exact Cert.Spec.chain_eq_flatLinear (xarr m c) (warr m c) (barr m c) r o

end Cert.KernelIdeal.KValue

end
-- ==== Proof.KernelRun.lean ====
/-
  From blocks to the result array, and the run. Every element of the flattened result lies in exactly the block of
  its block row and block column, written back at that run's last point; so after the region the flattened result
  array is the flattened layer of the arrays the region found, and the reshape after it gives the layer on the original axes.
-/
import proofs.«122596_j25975962206327_1_alg».proof.Proof.KernelValue

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.Chain Cert.KernelIdeal.KValue

variable (m : (ℓ : Loc nD τ sig) → Buf (Elt Ideal) ℓ) (ρ : Dev nD → PrngReg)

/-- The block element at any index of the block. -/
theorem out_apply_idx (c : Dev nD) (t : Fin cfg0.N) (h : t.val % 4 = 3) (y : S1024x1024.Idx) (r : Fin 16384) (o : Fin 4096)
    (hr : r.val = 1024 * (t.val / 16) + (y 0).val) (ho : o.val = 1024 * (t.val / 4 % 4) + (y 1).val) :
    (outsAt0 m c t.val t.isLt).1 y = flatResult m c (ix2 r o) := by
  obtain ⟨p, q, rfl⟩ : ∃ (p q : Fin 1024), y = ix2 p q := ⟨y 0, y 1, eq_ix2 y⟩
  exact out_apply m c t h p q r o hr ho

/-- What a run's last point writes back is its block of the flattened result. -/
theorem flushed_eq (c : Dev nD) (t : Fin cfg0.N) (hf : (cfg0.win 3).flush t = true) :
    (dats m 0 c).flushed 3 t = ((cfg0.win 3).blk t).view.read (Elt Ideal) (flatResult m c) := by
  have h3 : t.val % 4 = 3 := (flush0_3 t).mp hf
  obtain ⟨-, -, -, -, -, -, e0, e1⟩ := idx_facts t
  have hN : cfg0.N = 256 := N_0
  have ht := t.isLt
  show (cfg0.win 3).cut (grid0.coords t) ((dats m 0 c).after 3 t) = _
  rw [after0_3]
  funext y
  rw [View.read_apply]
  have hy0 : (y 0).val < 1024 := (y 0).isLt
  have hy1 : (y 1).val < 1024 := (y 1).isLt
  show (outsAt0 m c t.val t.isLt).1 ((cfg0.win 3).xinj (grid0.coords t) y) = flatResult m c (((cfg0.win 3).blk t).view.emb y)
  refine (out_apply_idx m c t h3 ((cfg0.win 3).xinj (grid0.coords t) y) ⟨1024 * (t.val / 16) + (y 0).val, by omega⟩
    ⟨1024 * (t.val / 4 % 4) + (y 1).val, by omega⟩ rfl rfl).trans (congrArg (flatResult m c) (funext fun a => Fin.ext ?_))
  match a with
  | ⟨0, _⟩ => show 1024 * (t.val / 16) + (y 0).val = win0_3.index t (0 : Fin 2) * 1024 + 1 * (y 0).val; rw [e0]; omega
  | ⟨1, _⟩ => show 1024 * (t.val / 4 % 4) + (y 1).val = win0_3.index t (1 : Fin 2) * 1024 + 1 * (y 1).val; rw [e1]; omega

/-- An element is in point `t`'s block iff each coordinate is in the block's range on its axis. -/
theorem mem_blk (t : Fin cfg0.N) (i : S16384x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_call0_v2).slice (win0_3.rect t)).set ↔ _
  rw [View.set_slice_whole, Rect.mem_set_unit]
  exact Iff.rfl

/-- Every element is in the block written at the last point of the run of its block row and block column. -/
theorem cover (i : S16384x4096.Idx) : ∃ t : Fin cfg0.N, (cfg0.win 3).flush t = true ∧ i ∈ ((cfg0.win 3).blk t).view.set := by
  have hN : cfg0.N = 256 := N_0
  have hi0 : (i 0).val < 16384 := (i 0).isLt
  have hi1 : (i 1).val < 4096 := (i 1).isLt
  obtain ⟨t, tv⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, e0, e1⟩ := idx_facts t
  refine ⟨t, (flush0_3 t).mpr (by rw [tv]; omega), ?_⟩
  rw [mem_blk]
  intro a
  match a with
  | ⟨0, _⟩ => show win0_3.index t (0 : Fin 2) * 1024 ≤ (i 0).val ∧ (i 0).val < win0_3.index t (0 : Fin 2) * 1024 + 1024; rw [e0, tv]; omega
  | ⟨1, _⟩ => show win0_3.index t (1 : Fin 2) * 1024 ≤ (i 1).val ∧ (i 1).val < win0_3.index t (1 : Fin 2) * 1024 + 1024; rw [e1, tv]; omega

/-- So the flattened result array ends holding the flattened layer. -/
theorem final (c : Dev nD) : (dats m 0 c).arrAt 3 cfg0.N = flatResult m c :=
  (dats m 0 c).arrAt_eq_of_cover 3 (flatResult m c) (flushed_eq m c) cover

/-- The region finds the input flattened … -/
theorem xarr_eq (c : Dev nD) :
    xarr m c = shapeCast S16384x4096 (m ((c : Thread nD τ).loc main_arg0)) shapeCasts_S4x4096x4096_S16384x4096 := by
  show StableHlo.after hostOps0 (fun b => m (c, b)) (Proc.devRef .tc main_call0_v0) = _
  after_results
  rfl

/-- … the bias as one row … -/
theorem barr_eq (c : Dev nD) :
    barr m c = shapeCast S1x4096 (m ((c : Thread nD τ).loc main_arg2)) shapeCasts_S4096_S1x4096 := by
  show StableHlo.after hostOps0 (fun b => m (c, b)) (Proc.devRef .tc main_call0_v1) = _
  after_results
  rfl

/-- … and the weight as launched. -/
theorem warr_eq (c : Dev nD) : warr m c = m ((c : Thread nD τ).loc main_arg1) := V_main_arg1 m c

/-- The reshape after the region reads the flattened result array. -/
theorem tail_eq (c : Dev nD) :
    Pipeline.afterTail₀ cfgs (dats m) 0 (V0 m) [hostOps1] c main_v0
      = shapeCast S4x4096x4096 (flatResult m c) shapeCasts_S16384x4096_S4x4096x4096 := by
  unfold Pipeline.afterTail₀
  show StableHlo.after hostOps1 _ (Proc.devRef .tc main_v0) = _
  after_results
  exact congrArg (fun v => shapeCast S4x4096x4096 v shapeCasts_S16384x4096_S4x4096x4096)
    ((Pipeline.withArrays_arr spec0 launch0.win.arr_inj c _ _ 3).trans (final m c))

/-- Unflattened, it is the layer of the launched arguments. -/
theorem result_eq (c : Dev nD) :
    shapeCast S4x4096x4096 (flatResult m c) shapeCasts_S16384x4096_S4x4096x4096
      = Cert.Spec.linear (m ((c : Thread nD τ).loc main_arg0)) (m ((c : Thread nD τ).loc main_arg1)) (m ((c : Thread nD τ).loc main_arg2)) := by
  unfold flatResult
  rw [xarr_eq, barr_eq, warr_eq]
  exact Cert.Spec.unflatten_flatLinear _ _ _ _ _ _

/-- The run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v0)
        = Cert.Spec.linear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v0 (Pipeline.mem_restRefs_of main_v0 (by decide) (by decide))).trans (tail_eq m c)).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KRun

end
-- ==== Proof.RefValue.lean ====
/-
  The reference at an index: the einsum's contraction over the last axis of the input and of the weight, plus the
  bias broadcast over the two leading axes, is the layer of the specification.
-/
import proofs.«122596_j25975962206327_1_alg».proof.Defs
import proofs.«122596_j25975962206327_1_alg».proof.Proof.Gen.ReferenceIdeal.Read
import proofs.«122596_j25975962206327_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's last stage, element by element, is the layer: the contraction's operand indices are `(a, s, k)` of
    the input and `(o, k)` of the weight, and both broadcasts read the bias at `o`. -/
theorem ref_eq_linear (x : (⟨S4x4096x4096, .f32⟩ : BufTy).Contents (Elt Ideal)) (w : (⟨S4096x4096, .f32⟩ : BufTy).Contents (Elt Ideal))
    (b : (⟨S4096, .f32⟩ : BufTy).Contents (Elt Ideal)) :
    val_main_v3 (F := Ideal) x w b = Cert.Spec.linear x w b := by
  funext i
  obtain ⟨a, s, o, rfl⟩ : ∃ (a : Fin 4) (s : Fin 4096) (o : Fin 4096), i = ix3 a s o := ⟨i 0, i 1, i 2, eq_ix3 i⟩
  rw [val_main_v3_apply, val_main_v0_apply, val_main_v2_apply, val_main_v1_apply]
  have el : ∀ k : Fin 4096, lidx_main_v0 (ix3 a s o) k = ix3 a s k := fun k => funext fun d => Fin.ext (by
    match d with
    | ⟨0, _⟩ => rfl
    | ⟨1, _⟩ => rfl
    | ⟨2, _⟩ => rfl)
  have er : ∀ k : Fin 4096, ridx_main_v0 (ix3 a s o) k = ix2 o k := fun k => funext fun d => Fin.ext (by
    match d with
    | ⟨0, _⟩ => rfl
    | ⟨1, _⟩ => rfl)
  have eb : idx_main_v1 (idx_main_v2 (ix3 a s o)) = ix1 o := funext fun d => Fin.ext (by
    match d with
    | ⟨0, _⟩ => rfl)
  simp only [el, er, eb]
  rfl

end Cert.ReferenceIdeal.RefValue

end
-- ==== Proof.lean ====
/-
  A linear layer, `out[b, s, o] = Σ_i x[b, s, i] · w[o, i] + bias[o]`, computed by a tiled kernel against an einsum.
  The kernel flattens the two leading axes of the input, walks the contracted axis in four steps of 1024 positions per
  output block of 1024 × 1024 — a scratch block is zeroed at the first step, each step adds the product of its input
  and weight blocks (narrowed to bf16, which changes nothing over the extended reals), the last step adds the bias row —
  and unflattens the result. The reference contracts the whole axis at once and adds the broadcast bias. Over the
  extended reals addition is associative and commutative with zero neutral, so the ordered chain of four partial sums
  over zero is the one sum over the axis, and the two results agree element by element; the precondition is not used.
  The three frames are the generated ones (the reference's is its run with the result dropped); the idealization
  rewrote nothing, so nothing is owed for it.
-/
import proofs.«122596_j25975962206327_1_alg».proof.Defs
import proofs.«122596_j25975962206327_1_alg».proof.Proof.Gen.Kernel
import proofs.«122596_j25975962206327_1_alg».proof.Proof.Gen.Kernel.Skeleton
import proofs.«122596_j25975962206327_1_alg».proof.Proof.Gen.Kernel.Launch
import proofs.«122596_j25975962206327_1_alg».proof.Proof.Gen.Kernel.Points
import proofs.«122596_j25975962206327_1_alg».proof.Proof.Gen.Kernel.Frame
import proofs.«122596_j25975962206327_1_alg».proof.Proof.Gen.KernelIdeal
import proofs.«122596_j25975962206327_1_alg».proof.Proof.Gen.KernelIdeal.Skeleton
import proofs.«122596_j25975962206327_1_alg».proof.Proof.Gen.KernelIdeal.Launch
import proofs.«122596_j25975962206327_1_alg».proof.Proof.Gen.KernelIdeal.Points
import proofs.«122596_j25975962206327_1_alg».proof.Proof.Gen.KernelIdeal.Frame
import proofs.«122596_j25975962206327_1_alg».proof.Proof.Gen.ReferenceIdeal
import proofs.«122596_j25975962206327_1_alg».proof.Proof.Gen.ReferenceIdeal.Run
import proofs.«122596_j25975962206327_1_alg».proof.Proof.Gen.ReferenceIdeal.Read
import proofs.«122596_j25975962206327_1_alg».proof.Proof.Gen.Pre_finite_inputs
import proofs.«122596_j25975962206327_1_alg».proof.Proof.KernelRun
import proofs.«122596_j25975962206327_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the (agreeing) arguments in their result arrays. -/
theorem algebraic : Cert.algebraic_KernelIdeal_ReferenceIdeal := by
  intro m ρ m' ρ' _ hagree
  refine ⟨fun c => Cert.Spec.linear (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.ref_eq_linear,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
